-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x1024x1024 : Shape := ⟨4, ![8, 16, 1024, 1024]⟩
abbrev S8x16x1024x128 : Shape := ⟨4, ![8, 16, 1024, 128]⟩
abbrev S_ : Shape := ⟨0, ![]⟩

class Facts : Prop where
  bcast_S_S8x16x1024x1024 : S_.BroadcastsInDim S8x16x1024x1024 (![] : Fin 0 → Fin S8x16x1024x1024.rank)
  reducesTo_S8x16x1024x1024_S_d0_1_2_3 : S8x16x1024x1024.ReducesTo [0, 1, 2, 3] S_
  h_S_ : 0 < S_.numel
  bcast_S_S8x16x1024x128 : S_.BroadcastsInDim S8x16x1024x128 (![] : Fin 0 → Fin S8x16x1024x128.rank)
  reducesTo_S8x16x1024x128_S_d0_1_2_3 : S8x16x1024x128.ReducesTo [0, 1, 2, 3] S_

variable [Facts]

def fn {F : FTy → Type} [FloatOps F] (main_arg0 : FVec F S8x16x1024x1024 .f32) (main_arg1 : FVec F S8x16x1024x128 .f32) : IVec S_ 1 :=
  let main_v0 : FVec F S8x16x1024x1024 .f32 := Host.absf main_arg0
  let main_cst : FVec F S_ .f32 := constant S_ .f32 0x7F800000#32
  let main_v1 : FVec F S8x16x1024x1024 .f32 := broadcastInDim S8x16x1024x1024 ![] bcast_S_S8x16x1024x1024 main_cst
  let main_v2 : IVec S8x16x1024x1024 1 := cmpf .olt main_v0 main_v1
  let main_c : IVec S_ 1 := constantI S_ 1 1#1
  let main_v3 : IVec S_ 1 := (fun x v => Host.reduce IntOp.andi x v reducesTo_S8x16x1024x1024_S_d0_1_2_3 h_S_) main_v2 main_c
  let main_v4 : FVec F S8x16x1024x128 .f32 := Host.absf main_arg1
  let main_cst_0 : FVec F S_ .f32 := constant S_ .f32 0x7F800000#32
  let main_v5 : FVec F S8x16x1024x128 .f32 := broadcastInDim S8x16x1024x128 ![] bcast_S_S8x16x1024x128 main_cst_0
  let main_v6 : IVec S8x16x1024x128 1 := cmpf .olt main_v4 main_v5
  let main_c_1 : IVec S_ 1 := constantI S_ 1 1#1
  let main_v7 : IVec S_ 1 := (fun x v => Host.reduce IntOp.andi x v reducesTo_S8x16x1024x128_S_d0_1_2_3 h_S_) main_v6 main_c_1
  let main_v8 : IVec S_ 1 := andi main_v3 main_v7
  main_v8
-- ==== Kernel.lean ====
abbrev S8x16x1024x1024 : Shape := ⟨4, ![8, 16, 1024, 1024]⟩
abbrev S8x16x1024x128 : Shape := ⟨4, ![8, 16, 1024, 128]⟩
abbrev S128x1024x1024 : Shape := ⟨3, ![128, 1024, 1024]⟩
abbrev S128x1024x128 : Shape := ⟨3, ![128, 1024, 128]⟩
abbrev S1x256x1024 : Shape := ⟨3, ![1, 256, 1024]⟩
abbrev S1x1024x128 : Shape := ⟨3, ![1, 1024, 128]⟩
abbrev S1x256x128 : Shape := ⟨3, ![1, 256, 128]⟩
abbrev S256x1024 : Shape := ⟨2, ![256, 1024]⟩
abbrev S1024x128 : Shape := ⟨2, ![1024, 128]⟩
abbrev S256x128 : Shape := ⟨2, ![256, 128]⟩

abbrev nBuf : Space → Nat
  | .hbm => 6
  | .vmem => 6
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x1024x128, .f32⟩
  | .hbm, ⟨2, _⟩ => ⟨S128x1024x1024, .f32⟩
  | .hbm, ⟨3, _⟩ => ⟨S128x1024x128, .f32⟩
  | .hbm, ⟨4, _⟩ => ⟨S128x1024x128, .f32⟩
  | .hbm, ⟨5, _⟩ => ⟨S8x16x1024x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x128, .f32⟩
  | .local _ .vmem, ⟨3, _⟩ => ⟨S1x1024x128, .f32⟩
  | .local _ .vmem, ⟨4, _⟩ => ⟨S1x256x128, .f32⟩
  | .local _ .vmem, ⟨5, _⟩ => ⟨S1x256x128, .f32⟩
  | _, _ => ⟨S8x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![128, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  shapeCasts_S8x16x1024x1024_S128x1024x1024 : S8x16x1024x1024.ShapeCasts S128x1024x1024
  shapeCasts_S8x16x1024x128_S128x1024x128 : S8x16x1024x128.ShapeCasts S128x1024x128
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  bitsLt_bf16_f32 : FTy.bits .bf16 < FTy.bits .f32
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  shapeCasts_S128x1024x128_S8x16x1024x128 : S128x1024x128.ShapeCasts S8x16x1024x128
  dot_S256x1024_S1024x128_S256x128_1_0_0_1_n_n_wf : DotDims.WF S256x1024 S1024x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S128x1024x1024.size a
  hwx0_0 : ∀ i : grid0.Coords, EltTy.bits .f32 = 32 ∨ (Rect.block (s := S128x1024x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x128.size a ≤ S128x1024x128.size a
  hwx0_1 : ∀ i : grid0.Coords, EltTy.bits .f32 = 32 ∨ (Rect.block (s := S128x1024x128) S1x1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x128.size a ≤ S128x1024x128.size a
  hwx0_2 : ∀ i : grid0.Coords, EltTy.bits .f32 = 32 ∨ (Rect.block (s := S128x1024x128) S1x256x128.size (cc0_transform_2 i) (hinb0_2 i)).WholeWords (EltTy.packing .f32)

variable [Facts₀]

def dot_S256x1024_S1024x128_S256x128_1_0_0_1_n_n : DotDims S256x1024 S1024x128 S256x128 where
  lhsContracting := [1]
  rhsContracting := [0]
  lhsNonContracting := [0]
  rhsNonContracting := [1]
  lhsBatch := []
  rhsBatch := []
  wf := dot_S256x1024_S1024x128_S256x128_1_0_0_1_n_n_wf

abbrev win0_0 : Pipeline.Window sig grid0 :=
  Pipeline.Window.ofSpec (Memref.whole main_v0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x16x1024x1024 : Shape := ⟨4, ![8, 16, 1024, 1024]⟩
abbrev S8x16x1024x128 : Shape := ⟨4, ![8, 16, 1024, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x16x1024x1024, .f32⟩
  | .hbm, ⟨1, _⟩ => ⟨S8x16x1024x128, .f32⟩
  | .hbm, ⟨2, _⟩ => ⟨S8x16x1024x128, .f32⟩
  | _, _ => ⟨S8x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x16x1024x1024_S8x16x1024x128_S8x16x1024x128_3_2_2_3_01_01_wf : DotDims.WF S8x16x1024x1024 S8x16x1024x128 S8x16x1024x128 [3] [2] [2] [3] [0, 1] [0, 1]

variable [Facts₀]

def dot_S8x16x1024x1024_S8x16x1024x128_S8x16x1024x128_3_2_2_3_01_01 : DotDims S8x16x1024x1024 S8x16x1024x128 S8x16x1024x128 where
  lhsContracting := [3]
  rhsContracting := [2]
  lhsNonContracting := [2]
  rhsNonContracting := [3]
  lhsBatch := [0, 1]
  rhsBatch := [0, 1]
  wf := dot_S8x16x1024x1024_S8x16x1024x128_S8x16x1024x128_3_2_2_3_01_01_wf

class Facts : Prop extends Facts₀ where

variable [Facts]
-- ==== Proof.Spec.lean ====
/-
  The mathematics both programs compute.

  For every batch entry `b < 8` and head `h < 16` the result is the matrix product of the
  1024 × 1024 matrix `x[b, h]` with the 1024 × 128 matrix `y[b, h]`:

      out[b, h, q, d] = ∑ k < 1024, x[b, h, q, k] · y[b, h, k, d]        (`headProduct`).

  One of the two programs first flattens the two leading axes into one axis of extent 128 (row-major:
  `(b, h) ↦ 16·b + h`), forms the same product slab by slab (`slabProduct`), and unflattens the result.
  Flattening does not touch the last two axes, so the slab `16·b + h` of the flattened operands is
  the pair `(x[b, h], y[b, h])` and the two descriptions agree entry by entry
  (`unflatten_slabProduct`). No property of the extended reals is used beyond the fact that both
  sides are literally the same finite sum of the same products.
-/
import Idealize.ShloMosaic.PureOps.Ideal
import Idealize.ShloMosaic.Lib.ValueIdx
import Idealize.ShloMosaic.Lib.Pipeline.Value

noncomputable section

namespace Cert.BatchedProduct

open Idealize.ShloMosaic Idealize.ShloMosaic.ValueIdx

/-- Left operand, batch × head × row × contraction. -/
abbrev SX4 : Shape := ⟨4, ![8, 16, 1024, 1024]⟩
/-- Right operand and result, batch × head × (contraction or row) × column. -/
abbrev SY4 : Shape := ⟨4, ![8, 16, 1024, 128]⟩
/-- Left operand with batch and head flattened. -/
abbrev SX3 : Shape := ⟨3, ![128, 1024, 1024]⟩
/-- Right operand and result with batch and head flattened. -/
abbrev SY3 : Shape := ⟨3, ![128, 1024, 128]⟩

/-- The product head by head: entry `(b, h, q, d)` is `∑ k, x[b, h, q, k] · y[b, h, k, d]`. -/
def headProduct (x : SX4.Idx → EReal) (y : SY4.Idx → EReal) : SY4.Idx → EReal :=
  fun i => ∑ k : Fin 1024, x (ix4 (i 0) (i 1) (i 2) k) * y (ix4 (i 0) (i 1) k (i 3))

/-- The product slab by slab over the flattened leading axis: entry `(s, q, d)` is `∑ k, a[s, q, k] · b[s, k, d]`. -/
def slabProduct (a : SX3.Idx → EReal) (b : SY3.Idx → EReal) : SY3.Idx → EReal :=
  fun j => ∑ k : Fin 1024, a (ix3 (j 0) (j 1) k) * b (ix3 (j 0) k (j 2))

/-- The slab of batch entry `b` and head `h`: `16·b + h`. -/
def slab (b : Fin 8) (h : Fin 16) : Fin 128 := ⟨b.val * 16 + h.val, by omega⟩

/-- Flattening the leading axes, multiplying slab by slab and unflattening is the head-by-head product: the
    row-major position of `(16·b + h, q, d)` in the flattened array is that of `(b, h, q, d)` in the original. -/
theorem unflatten_slabProduct (x : SX4.Idx → EReal) (y : SY4.Idx → EReal)
    (hx : SX4.ShapeCasts SX3) (hy : SY4.ShapeCasts SY3) (ho : SY3.ShapeCasts SY4) :
    shapeCast SY4 (slabProduct (shapeCast SX3 x hx) (shapeCast SY3 y hy)) ho = headProduct x y := by
  funext i
  refine (shapeCast_apply _ ho i (ix3 (slab (i 0) (i 1)) (i 2) (i 3)) ?_).trans ?_
  · rw [Shape.rowMajor_val_three, Shape.rowMajor_val_four]; rfl
  · unfold slabProduct headProduct
    refine Finset.sum_congr rfl fun k _ => ?_
    congr 1
    · exact shapeCast_apply x hx (ix3 (slab (i 0) (i 1)) (i 2) k) (ix4 (i 0) (i 1) (i 2) k)
        (by rw [Shape.rowMajor_val_four, Shape.rowMajor_val_three]; rfl)
    · exact shapeCast_apply y hy (ix3 (slab (i 0) (i 1)) k (i 3)) (ix4 (i 0) (i 1) k (i 3))
        (by rw [Shape.rowMajor_val_four, Shape.rowMajor_val_three]; rfl)

end Cert.BatchedProduct

end
-- ==== Proof.RefValue.lean ====
/-
  The reference computes the head-by-head product.

  The reference is one batched contraction: batch axes (0, 1) of both operands, contraction over axis 3 of
  the left operand and axis 2 of the right. Read at the output index `(b, h, q, d)` it is the sum over
  `k < 1024` of the left operand at `(b, h, q, k)` times the right operand at `(b, h, k, d)` — which is,
  term by term, `headProduct`.
-/
import proofs.«178961_j22720376996352_1_alg».proof.Proof.Gen.ReferenceIdeal.Read
import proofs.«178961_j22720376996352_1_alg».proof.Proof.Spec

noncomputable section

namespace Cert.ReferenceIdeal.RefValue

open Cert.ReferenceIdeal Idealize.ShloMosaic Idealize.ShloMosaic.ValueIdx Cert.BatchedProduct

/-- The contraction's left operand index at output index `i` and contraction position `k`, by coordinates. -/
theorem left_index (i : S8x16x1024x128.Idx) (k : Fin 1024) : Read.lidx_main_v0 i k = ix4 (i 0) (i 1) (i 2) k :=
  funext fun a => by
    match a with
    | ⟨0, _⟩ => rfl
    | ⟨1, _⟩ => rfl
    | ⟨2, _⟩ => rfl
    | ⟨3, _⟩ => rfl

/-- The contraction's right operand index at output index `i` and contraction position `k`, by coordinates. -/
theorem right_index (i : S8x16x1024x128.Idx) (k : Fin 1024) : Read.ridx_main_v0 i k = ix4 (i 0) (i 1) k (i 3) :=
  funext fun a => by
    match a with
    | ⟨0, _⟩ => rfl
    | ⟨1, _⟩ => rfl
    | ⟨2, _⟩ => rfl
    | ⟨3, _⟩ => rfl

/-- At the exact values the reference's one operation is `headProduct` of its two arguments. -/
theorem reference_eq (x : (⟨S8x16x1024x1024, .f32⟩ : BufTy).Contents (Elt Ideal)) (y : (⟨S8x16x1024x128, .f32⟩ : BufTy).Contents (Elt Ideal)) :
    Read.val_main_v0 (F := Ideal) x y = headProduct x y := by
  funext i
  rw [Read.val_main_v0_apply]
  unfold headProduct
  refine Finset.sum_congr rfl fun k _ => ?_
  rw [left_index, right_index]
  rfl

end Cert.ReferenceIdeal.RefValue

end
-- ==== Proof.Step.lean ====
/-
  One grid step of the kernel, entry by entry.

  A grid step loads a 256 × 1024 tile `a` of the left operand and a 1024 × 128 tile `b` of the right operand
  (each carrying a leading axis of extent one), narrows both to bf16 — the identity on exact values —,
  multiplies them into a zero accumulator and stores the 256 × 128 result, again under a leading unit axis.
  So at the exact values the stored entry `(0, p, q)` is

      ∑ k < 1024, a[0, p, k] · b[0, k, q].
-/
import proofs.«178961_j22720376996352_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.Step

open Cert.KernelIdeal Cert.KernelIdeal.Gen Idealize.ShloMosaic Idealize.ShloMosaic.ValueIdx

/-- The tile product's left operand index: row of the output entry. -/
theorem lhs_row (j : S256x128.Idx) (q : dot_S256x1024_S1024x128_S256x128_1_0_0_1_n_n.contr.Idx) :
    (dot_S256x1024_S1024x128_S256x128_1_0_0_1_n_n.lhsIdx j q 0).val = (j 0).val := by
  unfold DotDims.lhsIdx
  rw [dif_neg (show ¬(0 : Fin S256x1024.rank) ∈ dot_S256x1024_S1024x128_S256x128_1_0_0_1_n_n.lhsBatch by decide), dif_pos (show (0 : Fin S256x1024.rank) ∈ dot_S256x1024_S1024x128_S256x128_1_0_0_1_n_n.lhsNonContracting by decide)]
  rfl
/-- The tile product's left operand index: the contraction position. -/
theorem lhs_contr (j : S256x128.Idx) (q : dot_S256x1024_S1024x128_S256x128_1_0_0_1_n_n.contr.Idx) :
    (dot_S256x1024_S1024x128_S256x128_1_0_0_1_n_n.lhsIdx j q 1).val = (q ⟨0, by decide⟩).val :=
  dot_S256x1024_S1024x128_S256x128_1_0_0_1_n_n.lhsIdx_val_of_single rfl j q
/-- The tile product's right operand index: the contraction position. -/
theorem rhs_contr (j : S256x128.Idx) (q : dot_S256x1024_S1024x128_S256x128_1_0_0_1_n_n.contr.Idx) :
    (dot_S256x1024_S1024x128_S256x128_1_0_0_1_n_n.rhsIdx j q 0).val = (q ⟨0, by decide⟩).val :=
  dot_S256x1024_S1024x128_S256x128_1_0_0_1_n_n.rhsIdx_val_of_single rfl j q
/-- The tile product's right operand index: column of the output entry. -/
theorem rhs_col (j : S256x128.Idx) (q : dot_S256x1024_S1024x128_S256x128_1_0_0_1_n_n.contr.Idx) :
    (dot_S256x1024_S1024x128_S256x128_1_0_0_1_n_n.rhsIdx j q 1).val = (j 1).val := by
  unfold DotDims.rhsIdx
  rw [dif_neg (show ¬(1 : Fin S1024x128.rank) ∈ dot_S256x1024_S1024x128_S256x128_1_0_0_1_n_n.rhsBatch by decide), dif_pos (show (1 : Fin S1024x128.rank) ∈ dot_S256x1024_S1024x128_S256x128_1_0_0_1_n_n.rhsNonContracting by decide)]
  rfl

/-- The product of two tiles into a zero accumulator, at entry `(p, q)`: the sum over the shared axis. -/
theorem tile_product_apply (a : FVec Ideal S256x1024 .bf16) (b : FVec Ideal S1024x128 .bf16) (p : Fin 256) (q : Fin 128) :
    matmul dot_S256x1024_S1024x128_S256x128_1_0_0_1_n_n none a b (constant S256x128 .f32 0x00000000#32) (ix2 p q)
      = ∑ k : Fin 1024, a (ix2 p k) * b (ix2 k q) := by
  simp only [matmul]
  rw [Ideal.matmul_constant_zero_apply, ← Equiv.sum_comp (contrEquiv1 dot_S256x1024_S1024x128_S256x128_1_0_0_1_n_n 1024 rfl rfl).symm]
  refine Finset.sum_congr rfl fun k _ => ?_
  have hk := contrEquiv1_symm_val dot_S256x1024_S1024x128_S256x128_1_0_0_1_n_n 1024 rfl rfl k
  have el : dot_S256x1024_S1024x128_S256x128_1_0_0_1_n_n.lhsIdx (ix2 p q) ((contrEquiv1 dot_S256x1024_S1024x128_S256x128_1_0_0_1_n_n 1024 rfl rfl).symm k) = ix2 p k := funext fun x => Fin.ext (by
    match x with
    | ⟨0, _⟩ => exact lhs_row _ _
    | ⟨1, _⟩ => exact (lhs_contr _ _).trans hk)
  have er : dot_S256x1024_S1024x128_S256x128_1_0_0_1_n_n.rhsIdx (ix2 p q) ((contrEquiv1 dot_S256x1024_S1024x128_S256x128_1_0_0_1_n_n 1024 rfl rfl).symm k) = ix2 k q := funext fun x => Fin.ext (by
    match x with
    | ⟨0, _⟩ => exact (rhs_contr _ _).trans hk
    | ⟨1, _⟩ => exact rhs_col _ _)
  rw [el, er]

/-- What a grid step stores, at entry `(z, p, q)` of its block (`z` the unit axis): the sum over `k` of the left
    tile at `(0, p, k)` times the right tile at `(0, k, q)`. -/
theorem stored_apply (a : Vec Ideal S1x256x1024 .f32) (b : Vec Ideal S1x1024x128 .f32) (z : Fin 1) (p : Fin 256) (q : Fin 128) :
    k0_pay1 (F := Ideal) a b (ix3 z p q) = ∑ k : Fin 1024, a (ix3 0 p k) * b (ix3 0 k q) := by
  unfold k0_pay1
  refine (shapeCast_addUnit_apply ![256, 128] _ _ (ix3 z p q)).trans ?_
  have e : (fun x : Fin 2 => (ix3 z p q : S1x256x128.Idx) x.succ) = ix2 p q := funext fun x => by
    match x with
    | ⟨0, _⟩ => rfl
    | ⟨1, _⟩ => rfl
  rw [e]
  refine (tile_product_apply _ _ p q).trans ?_
  refine Finset.sum_congr rfl fun k _ => ?_
  congr 1
  · refine (shapeCast_dropUnit_apply ![256, 1024] a _ (ix2 p k)).trans ?_
    exact congrArg a (funext fun x => by
      match x with
      | ⟨0, _⟩ => rfl
      | ⟨1, _⟩ => rfl
      | ⟨2, _⟩ => rfl)
  · refine (shapeCast_dropUnit_apply ![1024, 128] b _ (ix2 k q)).trans ?_
    exact congrArg b (funext fun x => by
      match x with
      | ⟨0, _⟩ => rfl
      | ⟨1, _⟩ => rfl
      | ⟨2, _⟩ => rfl)

end Cert.KernelIdeal.Step

end
-- ==== Proof.Whole.lean ====
/-
  The kernel's output array, as one function of its two argument arrays.

  The grid has 128 × 4 points; point `(s, r)` works on slab `s` of the flattened operands: it loads rows
  `256·r … 256·r + 255` of slab `s` of the left operand (all 1024 columns), the whole slab `s` of the right
  operand, and writes rows `256·r … 256·r + 255` of slab `s` of the output. By the per-step formula every
  entry `(s, n, d)` written there is `∑ k, a[s, n, k] · b[s, k, d]`: the block written at a point is the
  restriction of ONE array, `slabProduct a b`, to that point's rows. The 512 blocks tile the output
  (row `n` of slab `s` belongs to point `4·s + n / 256`), so after the last point the output array is
  `slabProduct a b` everywhere. The operations around the grid only flatten the two arguments and unflatten the
  output, and `unflatten_slabProduct` turns that into the head-by-head product of the arguments.
-/
import proofs.«178961_j22720376996352_1_alg».proof.Proof.Gen.KernelIdeal.Frame
import proofs.«178961_j22720376996352_1_alg».proof.Proof.Step
import proofs.«178961_j22720376996352_1_alg».proof.Proof.Spec
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.BatchedProduct
open Idealize.ShloMosaic.Pipeline (Dat Cfg Window)

variable (m : (ℓ : Loc nD τ sig) → Buf (Elt Ideal) ℓ) (ρ : Dev nD → PrngReg)

/-- The left operand as the grid finds it (batch and head flattened), at its literal type. -/
abbrev flatX (c : Dev nD) : S128x1024x1024.Idx → EReal := V m c main_v0
/-- The right operand as the grid finds it (batch and head flattened), at its literal type. -/
abbrev flatY (c : Dev nD) : S128x1024x128.Idx → EReal := V m c main_v1

theorem zero_offsets : (![0, 0, 0] : Fin 3 → Nat) = fun _ => 0 := funext fun a => by fin_cases a <;> rfl

/-- Where the three windows sit at grid point `t`, decided over the 512 points: the output block is
    (slab `t / 4`, row block `t % 4`, column block 0); the left operand's block has the same slab and row block;
    the right operand's block is the whole slab. -/
theorem block_positions : ∀ t : Fin cfg0.N,
    win0_2.index t (0 : Fin 3) = t.val / 4 ∧ win0_2.index t (1 : Fin 3) = t.val % 4 ∧ win0_2.index t (2 : Fin 3) = 0
    ∧ win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = 0
    ∧ win0_1.index t (2 : Fin 3) = 0 :=
  (by decide +kernel : ∀ t : Fin grid0.N, _)

/-- What point `t` writes back is its block of `slabProduct` of the flattened operands. -/
theorem written_block (c : Dev nD) (t : Fin cfg0.N) :
    (dats m 0 c).flushed 2 t = ((cfg0.win 2).blk t).view.read (Elt Ideal) (slabProduct (flatX m c) (flatY m c)) := by
  show (cfg0.win 2).cut (grid0.coords t) ((dats m 0 c).after 2 t) = _
  rw [after0_2]
  unfold out0_2
  rw [View.canon_unit_zero zero_offsets]
  simp only [View.ld_unit_zero (S := S1x256x1024) zero_offsets, View.ld_unit_zero (S := S1x1024x128) zero_offsets]
  obtain ⟨e0, e1, e2, a0, a1, a2, b0, b1, b2⟩ := block_positions t
  funext j
  obtain ⟨z, p, q, rfl⟩ : ∃ (z : Fin 1) (p : Fin 256) (q : Fin 128), j = ix3 z p q := ⟨j 0, j 1, j 2, eq_ix3 j⟩
  refine (Step.stored_apply (iblk m c 0 t) (iblk m c 1 t) z p q).trans ?_
  show ∑ k : Fin 1024, flatX m c (((cfg0.win 0).blk t).view.emb (ix3 0 p k)) * flatY m c (((cfg0.win 1).blk t).view.emb (ix3 0 k q))
    = slabProduct (flatX m c) (flatY m c) (((cfg0.win 2).blk t).view.emb (ix3 z p q))
  unfold slabProduct
  refine Finset.sum_congr rfl fun k _ => ?_
  have hz : z.val = 0 := by have := z.isLt; omega
  refine congrArg₂ (fun u v : EReal => u * v) ?_ ?_
  · refine congrArg (flatX m c) (funext fun a => Fin.ext ?_)
    match a with
    | ⟨0, _⟩ => show win0_0.index t (0 : Fin 3) * 1 + 1 * 0 = win0_2.index t (0 : Fin 3) * 1 + 1 * z.val; omega
    | ⟨1, _⟩ => show win0_0.index t (1 : Fin 3) * 256 + 1 * p.val = win0_2.index t (1 : Fin 3) * 256 + 1 * p.val; omega
    | ⟨2, _⟩ => show win0_0.index t (2 : Fin 3) * 1024 + 1 * k.val = k.val; omega
  · refine congrArg (flatY m c) (funext fun a => Fin.ext ?_)
    match a with
    | ⟨0, _⟩ => show win0_1.index t (0 : Fin 3) * 1 + 1 * 0 = win0_2.index t (0 : Fin 3) * 1 + 1 * z.val; omega
    | ⟨1, _⟩ => show win0_1.index t (1 : Fin 3) * 1024 + 1 * k.val = k.val; omega
    | ⟨2, _⟩ => show win0_1.index t (2 : Fin 3) * 128 + 1 * q.val = win0_2.index t (2 : Fin 3) * 128 + 1 * q.val; omega

/-- An index of the output array lies in point `t`'s block iff each coordinate lies in the block's range. -/
theorem mem_block (t : Fin cfg0.N) (i : S128x1024x128.Idx) :
    i ∈ ((cfg0.win 2).blk t).view.set ↔ ∀ a : Fin 3, win0_2.index t a * S1x256x128.size a ≤ (i a).val ∧ (i a).val < win0_2.index t a * S1x256x128.size a + S1x256x128.size a := by
  show i ∈ ((View.whole main_v2).slice (win0_2.rect t)).set ↔ _
  rw [View.set_slice_whole, Rect.mem_set_unit]
  exact Iff.rfl

/-- Every entry of the output is written: row `n` of slab `s` by point `4·s + n / 256`. -/
theorem blocks_cover (i : S128x1024x128.Idx) :
    ∃ t : Fin cfg0.N, (cfg0.win 2).flush t = true ∧ i ∈ ((cfg0.win 2).blk t).view.set := by
  have h0 : (i 0).val < 128 := (i 0).isLt
  have h1 : (i 1).val < 1024 := (i 1).isLt
  have h2 : (i 2).val < 128 := (i 2).isLt
  obtain ⟨t, tv⟩ : ∃ t : Fin cfg0.N, t.val = (i 0).val * 4 + (i 1).val / 256 :=
    ⟨Fin.cast N_0.symm ⟨(i 0).val * 4 + (i 1).val / 256, by omega⟩, rfl⟩
  obtain ⟨e0, e1, e2, -⟩ := block_positions t
  refine ⟨t, flush0_2 t, ?_⟩
  rw [mem_block]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 256 ≤ (i 1).val ∧ (i 1).val < win0_2.index t (1 : Fin 3) * 256 + 256; omega
  | ⟨2, _⟩ => show win0_2.index t (2 : Fin 3) * 128 ≤ (i 2).val ∧ (i 2).val < win0_2.index t (2 : Fin 3) * 128 + 128; omega

/-- The output array after the last grid point is `slabProduct` of the flattened operands. -/
theorem output_array (c : Dev nD) : (dats m 0 c).arrAt 2 cfg0.N = slabProduct (flatX m c) (flatY m c) :=
  (dats m 0 c).arrAt_eq_of_cover 2 _ (fun t _ => written_block m c t) blocks_cover

/-- The left operand as the grid finds it: the first argument with batch and head flattened. -/
theorem flattened_left (c : Dev nD) :
    flatX m c
      = shapeCast S128x1024x1024 (m ((c : Thread nD τ).loc main_arg0)) Facts₀.shapeCasts_S8x16x1024x1024_S128x1024x1024 := by
  show StableHlo.after hostOps0 (fun b => m (c, b)) (Proc.devRef .tc main_v0) = _
  after_results
  rfl

/-- The right operand as the grid finds it: the second argument with batch and head flattened. -/
theorem flattened_right (c : Dev nD) :
    flatY m c
      = shapeCast S128x1024x128 (m ((c : Thread nD τ).loc main_arg1)) Facts₀.shapeCasts_S8x16x1024x128_S128x1024x128 := by
  show StableHlo.after hostOps0 (fun b => m (c, b)) (Proc.devRef .tc main_v1) = _
  after_results
  rfl

/-- The program's result after the operation that follows the grid: the output array unflattened, which is the
    head-by-head product of the two arguments. -/
theorem result_value (c : Dev nD) :
    Pipeline.afterTail₀ cfgs (dats m) 0 (V0 m) [hostOps1] c main_v3
      = headProduct (m ((c : Thread nD τ).loc main_arg0)) (m ((c : Thread nD τ).loc main_arg1)) := by
  unfold Pipeline.afterTail₀
  show StableHlo.after hostOps1 _ (Proc.devRef .tc main_v3) = _
  after_results
  refine Eq.trans ?_ (unflatten_slabProduct (m ((c : Thread nD τ).loc main_arg0)) (m ((c : Thread nD τ).loc main_arg1))
    Facts₀.shapeCasts_S8x16x1024x1024_S128x1024x1024 Facts₀.shapeCasts_S8x16x1024x128_S128x1024x128 Facts₀.shapeCasts_S128x1024x128_S8x16x1024x128)
  rw [← flattened_left m c, ← flattened_right m c, ← output_array m c]
  exact congrArg (fun v => shapeCast S8x16x1024x128 v Facts₀.shapeCasts_S128x1024x128_S8x16x1024x128)
    (Pipeline.withArrays_arr spec0 launch0.win.arr_inj c _ _ 2)

/-- The kernel's run at the exact values: it terminates without a fault, its result is the head-by-head product of
    its arguments, and the arguments are unchanged. -/
theorem run : θ_run defs (onTc (τ := τ) (main (F := Ideal))) ⟨m, fun _ => 0, ρ⟩ fun r => ∀ c : Dev nD,
      r.2.mem ((c.tc : Thread nD τ).loc main_v3) = headProduct (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (result_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Whole

end
-- ==== Proof.lean ====
/-
  The kernel and its reference compute the same batched matrix product.

  Both take `x : [8, 16, 1024, 1024]` and `y : [8, 16, 1024, 128]` and return, for every batch entry `b` and
  head `h`, the matrix product `x[b, h] · y[b, h]`:

      out[b, h, q, d] = ∑ k < 1024, x[b, h, q, k] · y[b, h, k, d].

  The reference is one batched contraction, which read at an index is exactly that sum (Proof/RefValue.lean).
  The kernel flattens batch and head into one axis of 128 slabs, walks a 128 × 4 grid whose point `(s, r)`
  multiplies rows `256·r … 256·r + 255` of slab `s` of the left operand with the whole slab `s` of the right
  operand (after narrowing both to bf16, which is the identity on exact values) and writes those rows of slab `s`
  of the output; the blocks tile the output, so the output is the slab-by-slab product, and unflattening it gives
  the head-by-head product (Proof/Step.lean, Proof/Whole.lean, Proof/Spec.lean). The two sums have the same terms
  in the same arrangement, so no law of the extended reals is needed and the finiteness of the inputs is never
  used: the result arrays agree entry by entry for all extended-real inputs.

  The three programs terminate without a fault and leave their arguments unchanged: for the two kernel programs
  this is the generated frame, for the reference it is its run with the result dropped. The idealization
  rewrote nothing, so the preservation claim is trivial.
-/
import proofs.«178961_j22720376996352_1_alg».proof.Defs
import proofs.«178961_j22720376996352_1_alg».proof.Proof.Gen.Kernel
import proofs.«178961_j22720376996352_1_alg».proof.Proof.Gen.Kernel.Skeleton
import proofs.«178961_j22720376996352_1_alg».proof.Proof.Gen.Kernel.Launch
import proofs.«178961_j22720376996352_1_alg».proof.Proof.Gen.Kernel.Points
import proofs.«178961_j22720376996352_1_alg».proof.Proof.Gen.Kernel.Frame
import proofs.«178961_j22720376996352_1_alg».proof.Proof.Gen.KernelIdeal
import proofs.«178961_j22720376996352_1_alg».proof.Proof.Gen.KernelIdeal.Skeleton
import proofs.«178961_j22720376996352_1_alg».proof.Proof.Gen.KernelIdeal.Launch
import proofs.«178961_j22720376996352_1_alg».proof.Proof.Gen.KernelIdeal.Points
import proofs.«178961_j22720376996352_1_alg».proof.Proof.Gen.KernelIdeal.Frame
import proofs.«178961_j22720376996352_1_alg».proof.Proof.Gen.ReferenceIdeal
import proofs.«178961_j22720376996352_1_alg».proof.Proof.Gen.Pre_finite_inputs
import proofs.«178961_j22720376996352_1_alg».proof.Proof.Gen.ReferenceIdeal.Run
import proofs.«178961_j22720376996352_1_alg».proof.Proof.Gen.ReferenceIdeal.Read
import proofs.«178961_j22720376996352_1_alg».proof.Proof.Spec
import proofs.«178961_j22720376996352_1_alg».proof.Proof.RefValue
import proofs.«178961_j22720376996352_1_alg».proof.Proof.Whole
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read at the exact values. -/
theorem frame_kernel_ideal : Cert.frame_KernelIdeal := fun m ρ _ => Cert.KernelIdeal.Gen.frame m ρ

/-- So does the reference: its run, with the statement about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the two arguments both programs end with the head-by-head product of the
    arguments in their result array: the kernel by `Whole.run`, the reference by its run and `reference_eq`. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨?_, (h c).2⟩)
    (Cert.ReferenceIdeal.Value.run (F := Ideal) m' ρ')
  refine ((h c).1.trans (Cert.ReferenceIdeal.RefValue.reference_eq _ _)).trans ?_
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
